-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x2047 : Shape := ⟨2, ![2048, 2047]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x2047 : S_.BroadcastsInDim S2048x2047 (![] : Fin 0 → Fin S2048x2047.rank)
  reducesTo_S2048x2047_S_d0_1 : S2048x2047.ReducesTo [0, 1] S_

variable [Facts]

def fn {F : FTy → Type} [FloatOps F] (main_arg0 : FVec F S2048x2048 .f32) (main_arg1 : FVec F S2048x2047 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2047 .f32 := Host.absf main_arg1
  let main_cst_0 : FVec F S_ .f32 := constant S_ .f32 0x7F800000#32
  let main_v5 : FVec F S2048x2047 .f32 := broadcastInDim S2048x2047 ![] bcast_S_S2048x2047 main_cst_0
  let main_v6 : IVec S2048x2047 1 := cmpf .olt main_v4 main_v5
  let main_c_1 : IVec S_ 1 := constantI S_ 1 1#1
  let main_v7 : IVec S_ 1 := (fun x v => Host.reduce IntOp.andi x v reducesTo_S2048x2047_S_d0_1 h_S_) main_v6 main_c_1
  let main_v8 : IVec S_ 1 := andi main_v3 main_v7
  main_v8
-- ==== Kernel.lean ====
abbrev S2048x2048 : Shape := ⟨2, ![2048, 2048]⟩
abbrev S2048x2047 : Shape := ⟨2, ![2048, 2047]⟩
abbrev S2047x2047 : Shape := ⟨2, ![2047, 2047]⟩
abbrev S2047x2048 : Shape := ⟨2, ![2047, 2048]⟩
abbrev S2047 : Shape := ⟨1, ![2047]⟩
abbrev S2047x1 : Shape := ⟨2, ![2047, 1]⟩
abbrev S1 : Shape := ⟨1, ![1]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2047, .f32⟩
  | .hbm, ⟨2, _⟩ => ⟨S2048x2048, .bf16⟩
  | .hbm, ⟨3, _⟩ => ⟨S2048x2047, .bf16⟩
  | .hbm, ⟨4, _⟩ => ⟨S2047x2047, .bf16⟩
  | .hbm, ⟨5, _⟩ => ⟨S2047x2047, .bf16⟩
  | .hbm, ⟨6, _⟩ => ⟨S2048x2048, .f32⟩
  | .local _ .vmem, ⟨0, _⟩ => ⟨S2048x2048, .bf16⟩
  | .local _ .vmem, ⟨1, _⟩ => ⟨S2048x2047, .bf16⟩
  | .local _ .vmem, ⟨2, _⟩ => ⟨S2047x2047, .bf16⟩
  | .local _ .vmem, ⟨3, _⟩ => ⟨S2047x2047, .bf16⟩
  | .local _ .vmem, ⟨4, _⟩ => ⟨S2047x2047, .bf16⟩
  | .local _ .vmem, ⟨5, _⟩ => ⟨S2047x2047, .bf16⟩
  | .local _ .vmem, ⟨6, _⟩ => ⟨S2047x2047, .bf16⟩
  | .local _ .vmem, ⟨7, _⟩ => ⟨S2047x2047, .bf16⟩
  | .local _ .vmem, ⟨8, _⟩ => ⟨S2048x2047, .bf16⟩
  | .local _ .vmem, ⟨9, _⟩ => ⟨S2048x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_scratch0 : Ref sig .tc := ⟨.vmem, 5, rfl⟩
abbrev cc1_scratch1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc2_sem0_0 : DmaSem sig := 5
abbrev cc2_sem1_0 : DmaSem sig := 6
abbrev cc2_sem2_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2047 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2047x2047 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2047x2047 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2047x2047 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2047x2047 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x2047 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x2047_S2048x2047_0_0 : ∀ a, (![0, 0] : Fin 2 → Nat) a + S2048x2047.size a ≤ S2048x2047.size a
  h_S2048x2047 : 0 < S2048x2047.numel
  shapeCasts_S2048x2047_S2048x2047 : S2048x2047.ShapeCasts S2048x2047
  transposes_S2048x2047_p1_0_S2047x2048 : S2048x2047.Transposes [1, 0] S2047x2048
  reduces_S2047x2047_S2047 : S2047x2047.Reduces [1] S2047
  shapeCasts_S2047_S2047x1 : S2047.ShapeCasts S2047x1
  reduces_S2047x1_S1 : S2047x1.Reduces [0] S1
  shapeCasts_S1_S1x1 : S1.ShapeCasts S1x1
  broadcasts_S1x1_S2047x2047 : S1x1.Broadcasts S2047x2047
  inb_S2047x2047_S2047x2047_0_0 : ∀ a, (![0, 0] : Fin 2 → Nat) a + S2047x2047.size a ≤ S2047x2047.size a
  h_S2047x2047 : 0 < S2047x2047.numel
  packedbf16_S2047x2047_S2047x2047_0_0 : (Rect.unit (s := S2047x2047) ![0, 0] S2047x2047.size inb_S2047x2047_S2047x2047_0_0).PackedRows (EltTy.packing .bf16)
  shapeCasts_S2047x2047_S2047x2047 : S2047x2047.ShapeCasts S2047x2047
  transposes_S2047x2047_p1_0_S2047x2047 : S2047x2047.Transposes [1, 0] S2047x2047
  dot_S2048x2048_S2048x2047_S2048x2047_1_0_0_1_n_n_wf : DotDims.WF S2048x2048 S2048x2047 S2048x2047 [1] [0] [0] [1] [] []
  dot_S2047x2048_S2048x2047_S2047x2047_1_0_0_1_n_n_wf : DotDims.WF S2047x2048 S2048x2047 S2047x2047 [1] [0] [0] [1] [] []
  dot_S2047x2047_S2047x2047_S2047x2047_1_0_0_1_n_n_wf : DotDims.WF S2047x2047 S2047x2047 S2047x2047 [1] [0] [0] [1] [] []
  dot_S2047x2047_S2047x2048_S2047x2048_1_0_0_1_n_n_wf : DotDims.WF S2047x2047 S2047x2048 S2047x2048 [1] [0] [0] [1] [] []
  dot_S2048x2047_S2047x2048_S2048x2048_1_0_0_1_n_n_wf : DotDims.WF S2048x2047 S2047x2048 S2048x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2047.size a ≤ S2048x2047.size a
  hwx0_1 : ∀ i : grid0.Coords, EltTy.bits .bf16 = 32 ∨ (Rect.block (s := S2048x2047) S2048x2047.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2047x2047.size a ≤ S2047x2047.size a
  hwx0_2 : ∀ i : grid0.Coords, EltTy.bits .bf16 = 32 ∨ (Rect.block (s := S2047x2047) S2047x2047.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2047x2047.size a ≤ S2047x2047.size a
  hwx1_0 : ∀ i : grid1.Coords, EltTy.bits .bf16 = 32 ∨ (Rect.block (s := S2047x2047) S2047x2047.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2047x2047.size a ≤ S2047x2047.size a
  hwx1_1 : ∀ i : grid1.Coords, EltTy.bits .bf16 = 32 ∨ (Rect.block (s := S2047x2047) S2047x2047.size (cc1_transform_1 i) (hinb1_1 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2047x2047.size a ≤ S2047x2047.size a
  hwx2_0 : ∀ i : grid2.Coords, EltTy.bits .bf16 = 32 ∨ (Rect.block (s := S2047x2047) S2047x2047.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2047.size a ≤ S2048x2047.size a
  hwx2_1 : ∀ i : grid2.Coords, EltTy.bits .bf16 = 32 ∨ (Rect.block (s := S2048x2047) S2048x2047.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x2048.size a
  hwx2_2 : ∀ i : grid2.Coords, EltTy.bits .f32 = 32 ∨ (Rect.block (s := S2048x2048) S2048x2048.size (cc2_transform_2 i) (hinb2_2 i)).WholeWords (EltTy.packing .f32)

variable [Facts₀]

def dot_S2048x2048_S2048x2047_S2048x2047_1_0_0_1_n_n : DotDims S2048x2048 S2048x2047 S2048x2047 where
  lhsContracting := [1]
  rhsContracting := [0]
  lhsNonContracting := [0]
  rhsNonContracting := [1]
  lhsBatch := []
  rhsBatch := []
  wf := dot_S2048x2048_S2048x2047_S2048x2047_1_0_0_1_n_n_wf
def dot_S2047x2048_S2048x2047_S2047x2047_1_0_0_1_n_n : DotDims S2047x2048 S2048x2047 S2047x2047 where
  lhsContracting := [1]
  rhsContracting := [0]
  lhsNonContracting := [0]
  rhsNonContracting := [1]
  lhsBatch := []
  rhsBatch := []
  wf := dot_S2047x2048_S2048x2047_S2047x2047_1_0_0_1_n_n_wf
def dot_S2047x2047_S2047x2047_S2047x2047_1_0_0_1_n_n : DotDims S2047x2047 S2047x2047 S2047x2047 where
  lhsContracting := [1]
  rhsContracting := [0]
  lhsNonContracting := [0]
  rhsNonContracting := [1]
  lhsBatch := []
  rhsBatch := []
  wf := dot_S2047x2047_S2047x2047_S2047x2047_1_0_0_1_n_n_wf
def dot_S2047x2047_S2047x2048_S2047x2048_1_0_0_1_n_n : DotDims S2047x2047 S2047x2048 S2047x2048 where
  lhsContracting := [1]
  rhsContracting := [0]
  lhsNonContracting := [0]
  rhsNonContracting := [1]
  lhsBatch := []
  rhsBatch := []
  wf := dot_S2047x2047_S2047x2048_S2047x2048_1_0_0_1_n_n_wf
def dot_S2048x2047_S2047x2048_S2048x2048_1_0_0_1_n_n : DotDims S2048x2047 S2047x2048 S2048x2048 where
  lhsContracting := [1]
  rhsContracting := [0]
  lhsNonContracting := [0]
  rhsNonContracting := [1]
  lhsBatch := []
  rhsBatch := []
  wf := dot_S2048x2047_S2047x2048_S2048x2048_1_0_0_1_n_n_wf

abbrev win0_0 : Pipeline.Window sig grid0 :=
  Pipeline.Window.ofSpec (Memref.whole main_v0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2047.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2047x2047.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S2047x2047.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2047x2047.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v3) S2047x2047.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x2047.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S2048x2048.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S2048x2047 : Shape := ⟨2, ![2048, 2047]⟩
abbrev S2047x2048 : Shape := ⟨2, ![2047, 2048]⟩
abbrev S2047x2047 : Shape := ⟨2, ![2047, 2047]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2047, .f32⟩
  | .hbm, ⟨2, _⟩ => ⟨S2047x2048, .f32⟩
  | .hbm, ⟨3, _⟩ => ⟨S2048x2047, .f32⟩
  | .hbm, ⟨4, _⟩ => ⟨S2047x2047, .f32⟩
  | .hbm, ⟨5, _⟩ => ⟨S2047x2047, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2047x2047, .f32⟩
  | .hbm, ⟨10, _⟩ => ⟨S2047x2047, .f32⟩
  | .hbm, ⟨11, _⟩ => ⟨S_, .f32⟩
  | .hbm, ⟨12, _⟩ => ⟨S2047x2047, .f32⟩
  | .hbm, ⟨13, _⟩ => ⟨S2047x2047, .f32⟩
  | .hbm, ⟨14, _⟩ => ⟨S2047x2047, .f32⟩
  | .hbm, ⟨15, _⟩ => ⟨S2047x2047, .f32⟩
  | .hbm, ⟨16, _⟩ => ⟨S2047x2047, .f32⟩
  | .hbm, ⟨17, _⟩ => ⟨S_, .f32⟩
  | .hbm, ⟨18, _⟩ => ⟨S2047x2047, .f32⟩
  | .hbm, ⟨19, _⟩ => ⟨S2047x2047, .f32⟩
  | .hbm, ⟨20, _⟩ => ⟨S2047x2047, .f32⟩
  | .hbm, ⟨21, _⟩ => ⟨S_, .f32⟩
  | .hbm, ⟨22, _⟩ => ⟨S2047x2047, .f32⟩
  | .hbm, ⟨23, _⟩ => ⟨S2047x2047, .f32⟩
  | .hbm, ⟨24, _⟩ => ⟨S2047x2047, .f32⟩
  | .hbm, ⟨25, _⟩ => ⟨S2047x2047, .f32⟩
  | .hbm, ⟨26, _⟩ => ⟨S2047x2047, .f32⟩
  | .hbm, ⟨27, _⟩ => ⟨S_, .f32⟩
  | .hbm, ⟨28, _⟩ => ⟨S2047x2047, .f32⟩
  | .hbm, ⟨29, _⟩ => ⟨S2047x2047, .f32⟩
  | .hbm, ⟨30, _⟩ => ⟨S2047x2047, .f32⟩
  | .hbm, ⟨31, _⟩ => ⟨S_, .f32⟩
  | .hbm, ⟨32, _⟩ => ⟨S2047x2047, .f32⟩
  | .hbm, ⟨33, _⟩ => ⟨S2047x2047, .f32⟩
  | .hbm, ⟨34, _⟩ => ⟨S2047x2047, .f32⟩
  | .hbm, ⟨35, _⟩ => ⟨S2047x2047, .f32⟩
  | .hbm, ⟨36, _⟩ => ⟨S2047x2047, .f32⟩
  | .hbm, ⟨37, _⟩ => ⟨S_, .f32⟩
  | .hbm, ⟨38, _⟩ => ⟨S2047x2047, .f32⟩
  | .hbm, ⟨39, _⟩ => ⟨S2047x2047, .f32⟩
  | .hbm, ⟨40, _⟩ => ⟨S2047x2047, .f32⟩
  | .hbm, ⟨41, _⟩ => ⟨S_, .f32⟩
  | .hbm, ⟨42, _⟩ => ⟨S2047x2047, .f32⟩
  | .hbm, ⟨43, _⟩ => ⟨S2047x2047, .f32⟩
  | .hbm, ⟨44, _⟩ => ⟨S2047x2047, .f32⟩
  | .hbm, ⟨45, _⟩ => ⟨S2047x2047, .f32⟩
  | .hbm, ⟨46, _⟩ => ⟨S2047x2047, .f32⟩
  | .hbm, ⟨47, _⟩ => ⟨S_, .f32⟩
  | .hbm, ⟨48, _⟩ => ⟨S2047x2047, .f32⟩
  | .hbm, ⟨49, _⟩ => ⟨S2047x2047, .f32⟩
  | .hbm, ⟨50, _⟩ => ⟨S2047x2047, .f32⟩
  | .hbm, ⟨51, _⟩ => ⟨S_, .f32⟩
  | .hbm, ⟨52, _⟩ => ⟨S2047x2047, .f32⟩
  | .hbm, ⟨53, _⟩ => ⟨S2047x2047, .f32⟩
  | .hbm, ⟨54, _⟩ => ⟨S2047x2047, .f32⟩
  | .hbm, ⟨55, _⟩ => ⟨S2047x2047, .f32⟩
  | .hbm, ⟨56, _⟩ => ⟨S2047x2047, .f32⟩
  | .hbm, ⟨57, _⟩ => ⟨S_, .f32⟩
  | .hbm, ⟨58, _⟩ => ⟨S2047x2047, .f32⟩
  | .hbm, ⟨59, _⟩ => ⟨S2047x2047, .f32⟩
  | .hbm, ⟨60, _⟩ => ⟨S2047x2047, .f32⟩
  | .hbm, ⟨61, _⟩ => ⟨S_, .f32⟩
  | .hbm, ⟨62, _⟩ => ⟨S2048x2048, .f32⟩
  | .hbm, ⟨63, _⟩ => ⟨S2047x2048, .f32⟩
  | .hbm, ⟨64, _⟩ => ⟨S2047x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  transposes_S2048x2047_S2047x2048_1_0 : S2048x2047.Transposes [1, 0] S2047x2048
  reducesTo_S2047x2047_S_d0_1 : S2047x2047.ReducesTo [0, 1] S_
  h_S_ : 0 < S_.numel
  bcast_S_S2047x2047 : S_.BroadcastsInDim S2047x2047 (![] : Fin 0 → Fin S2047x2047.rank)
  transposes_S2047x2047_S2047x2047_1_0 : S2047x2047.Transposes [1, 0] S2047x2047
  bcast_S_S2048x2048 : S_.BroadcastsInDim S2048x2048 (![] : Fin 0 → Fin S2048x2048.rank)
  dot_S2048x2048_S2048x2047_S2048x2047_1_0_0_1_n_n_wf : DotDims.WF S2048x2048 S2048x2047 S2048x2047 [1] [0] [0] [1] [] []
  dot_S2047x2048_S2048x2047_S2047x2047_1_0_0_1_n_n_wf : DotDims.WF S2047x2048 S2048x2047 S2047x2047 [1] [0] [0] [1] [] []
  dot_S2047x2047_S2047x2047_S2047x2047_1_0_0_1_n_n_wf : DotDims.WF S2047x2047 S2047x2047 S2047x2047 [1] [0] [0] [1] [] []
  dot_S2047x2047_S2047x2048_S2047x2048_1_0_0_1_n_n_wf : DotDims.WF S2047x2047 S2047x2048 S2047x2048 [1] [0] [0] [1] [] []
  dot_S2048x2047_S2047x2048_S2048x2048_1_0_0_1_n_n_wf : DotDims.WF S2048x2047 S2047x2048 S2048x2048 [1] [0] [0] [1] [] []

variable [Facts₀]

def dot_S2048x2048_S2048x2047_S2048x2047_1_0_0_1_n_n : DotDims S2048x2048 S2048x2047 S2048x2047 where
  lhsContracting := [1]
  rhsContracting := [0]
  lhsNonContracting := [0]
  rhsNonContracting := [1]
  lhsBatch := []
  rhsBatch := []
  wf := dot_S2048x2048_S2048x2047_S2048x2047_1_0_0_1_n_n_wf
def dot_S2047x2048_S2048x2047_S2047x2047_1_0_0_1_n_n : DotDims S2047x2048 S2048x2047 S2047x2047 where
  lhsContracting := [1]
  rhsContracting := [0]
  lhsNonContracting := [0]
  rhsNonContracting := [1]
  lhsBatch := []
  rhsBatch := []
  wf := dot_S2047x2048_S2048x2047_S2047x2047_1_0_0_1_n_n_wf
def dot_S2047x2047_S2047x2047_S2047x2047_1_0_0_1_n_n : DotDims S2047x2047 S2047x2047 S2047x2047 where
  lhsContracting := [1]
  rhsContracting := [0]
  lhsNonContracting := [0]
  rhsNonContracting := [1]
  lhsBatch := []
  rhsBatch := []
  wf := dot_S2047x2047_S2047x2047_S2047x2047_1_0_0_1_n_n_wf
def dot_S2047x2047_S2047x2048_S2047x2048_1_0_0_1_n_n : DotDims S2047x2047 S2047x2048 S2047x2048 where
  lhsContracting := [1]
  rhsContracting := [0]
  lhsNonContracting := [0]
  rhsNonContracting := [1]
  lhsBatch := []
  rhsBatch := []
  wf := dot_S2047x2047_S2047x2048_S2047x2048_1_0_0_1_n_n_wf
def dot_S2048x2047_S2047x2048_S2048x2048_1_0_0_1_n_n : DotDims S2048x2047 S2047x2048 S2048x2048 where
  lhsContracting := [1]
  rhsContracting := [0]
  lhsNonContracting := [0]
  rhsNonContracting := [1]
  lhsBatch := []
  rhsBatch := []
  wf := dot_S2048x2047_S2047x2048_S2048x2048_1_0_0_1_n_n_wf

class Facts : Prop extends Facts₀ where

variable [Facts]
-- ==== Proof.KernelBodies.lean ====
/-
  What each of the three kernel bodies leaves in its output buffer, as one pure term of the buffers it was
  given, at any float family.

  Every body loads and stores WHOLE buffers (the rectangle at offset zero of the buffer's own extents), so a
  load reads the contents and the one covering store leaves its payload. The down-projection body stores
  `A / ‖A‖` with `A = Uᵀ (H U)`; the lift body stores `U (X Uᵀ) + 1/n`. The Newton–Schulz body keeps `X`
  in one scratch buffer and `M = Xᵀ X` in another: each of its five unrolled trips stores `M`, reads it back,
  and overwrites `X` with `1.5 X − 0.5 X M`; a load through the rectangle of the latest store reads that
  store's payload whatever was stored before, so the trips compose as functions.
-/
import proofs.«139340_j257698038385_1_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem Idealize.ShloMosaic.Tactic

variable {F : FTy → Type} [FloatOps F]

/-- The zero offsets of a rank-two buffer, as the printed rectangles spell them. -/
theorem hz : (![0, 0] : Fin 2 → Nat) = fun _ => 0 := funext fun a => by fin_cases a <;> rfl

/-- Down-projection: the output buffer holds the body's one payload of the two input buffers. -/
theorem out0_2_eq (x0 : Vec F S2048x2048 .bf16) (x1 : Vec F S2048x2047 .bf16) :
    out0_2 x0 x1 = k0_pay1 x0 x1 x1 := by
  unfold out0_2
  rw [View.canon_unit_zero hz]
  simp only [View.ld_unit_zero (S := S2048x2048) hz, View.ld_unit_zero (S := S2048x2047) hz]

/-- Lift-back: the output buffer holds the body's one payload of the two input buffers. -/
theorem out2_2_eq (x0 : Vec F S2047x2047 .bf16) (x1 : Vec F S2048x2047 .bf16) :
    out2_2 x0 x1 = k2_pay1 x1 x0 x1 := by
  unfold out2_2
  rw [View.canon_unit_zero hz]
  simp only [View.ld_unit_zero (S := S2047x2047) hz, View.ld_unit_zero (S := S2048x2047) hz]

/-! ## The five Newton–Schulz trips, each `X ↦ update X (gram X)` -/

/-- Trip 1: `M = Xᵀ X` stored and read back, then `1.5 X − 0.5 X M`. -/
def trip1 (x : Vec F S2047x2047 .bf16) : FVec F S2047x2047 .bf16 := k1_pay3 x (k1_pay2 x)
/-- Trip 2. -/
def trip2 (x : Vec F S2047x2047 .bf16) : FVec F S2047x2047 .bf16 := k1_pay5 x (k1_pay4 x)
/-- Trip 3. -/
def trip3 (x : Vec F S2047x2047 .bf16) : FVec F S2047x2047 .bf16 := k1_pay7 x (k1_pay6 x)
/-- Trip 4 (its Gram matrix is computed in one part of the body and stored in the next). -/
def trip4 (x : Vec F S2047x2047 .bf16) : FVec F S2047x2047 .bf16 := k1_pay10 x (k1_pay9 (k1_pay8 x))
/-- Trip 5. -/
def trip5 (x : Vec F S2047x2047 .bf16) : FVec F S2047x2047 .bf16 := k1_pay12 x (k1_pay11 x)

/-- All five trips from the copied-in input. -/
def trips (x : Vec F S2047x2047 .bf16) : FVec F S2047x2047 .bf16 :=
  trip5 (trip4 (trip3 (trip2 (trip1 (k1_pay1 x)))))

/-- Newton–Schulz: whatever staging and scratch buffers the body is run on, its output buffer ends holding the five
    trips of its input buffer. -/
theorem out1_eq (c : Dev nD) (i : grid1.Coords) (arg1 : Memref sig .tc .vmem S2047x2047 .bf16) (harg1 : arg1.IsWhole)
    (arg2 : Memref sig .tc .vmem S2047x2047 .bf16) (harg2 : arg2.IsWhole) (arg3 : Memref sig .tc .vmem S2047x2047 .bf16) (harg3 : arg3.IsWhole)
    (arg4 : Memref sig .tc .vmem S2047x2047 .bf16) (harg4 : arg4.IsWhole) (x0 : Vec F S2047x2047 .bf16) :
    out1_A_1 (F := F) c i arg1 harg1 arg2 harg2 arg3 harg3 arg4 harg4 x0 = trips x0 := by
  unfold out1_A_1
  rw [View.read_writes_eq_canon _ _ _ (cover1_A_1 c i arg1 harg1 arg2 harg2 arg3 harg3 arg4 harg4 x0)]
  unfold kernelRun1_A
  dsimp only
  sl_unfold_words
  rw [View.canon_unit_zero hz]
  simp only [View.readCov_cons_toLoadRect, View.readAt_eq_ld, harg1.read_unread, View.ld_unit_zero (S := S2047x2047) hz]
  rfl

/-- The whole program as ONE term of its two arguments: the host narrows both to bf16; then the down-projection, the
    five trips and the lift-back, each body's payload applied to what the one before left. -/
def whole (h : FVec F S2048x2048 .f32) (u : FVec F S2048x2047 .f32) : FVec F S2048x2048 .f32 :=
  k2_pay1 (truncf .bf16 u bitsLt_bf16_f32)
    (trips (k0_pay1 (truncf .bf16 h bitsLt_bf16_f32) (truncf .bf16 u bitsLt_bf16_f32) (truncf .bf16 u bitsLt_bf16_f32)))
    (truncf .bf16 u bitsLt_bf16_f32)

end Cert.KernelIdeal.Body

end
-- ==== Proof.KernelArrays.lean ====
/-
  Each of the three pallas_calls, as a function from the arrays its region is entered with to the array it leaves.

  Every grid has ONE point and every window's block is its whole array (all block indices are zero), so: an input
  window's block at the point is its array; what the point writes back is the whole output buffer; the one
  block covers every index of the output array. Hence the output array after a region is the body's
  whole-buffer function of the input arrays as the region found them, and an input array is left as found.
-/
import proofs.«139340_j257698038385_1_alg».proof.Proof.KernelBodies

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## All block indices are zero (decided over the one-point grids) -/

theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem idx1 : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-! ## Region 0: the down-projection -/

/-- Input window 0's block at the point is the whole array. -/
theorem iblk0_0_eq (c : Dev nD) (t : Fin cfg0.N) : iblk0 V c 0 t = V c main_v0 := by
  obtain ⟨e0, e1, -⟩ := idx0 t
  funext y
  show V c main_v0 (((cfg0.win 0).blk t).view.emb y) = V c main_v0 y
  refine congrArg (V c main_v0) ?_
  funext a; apply Fin.ext
  match a with
  | ⟨0, _⟩ => show win0_0.index t (0 : Fin 2) * 2048 + 1 * (y 0).val = (y 0).val; omega
  | ⟨1, _⟩ => show win0_0.index t (1 : Fin 2) * 2048 + 1 * (y 1).val = (y 1).val; omega

/-- Input window 1's block at the point is the whole array. -/
theorem iblk0_1_eq (c : Dev nD) (t : Fin cfg0.N) : iblk0 V c 1 t = V c main_v1 := by
  obtain ⟨-, -, e0, e1, -⟩ := idx0 t
  funext y
  show V c main_v1 (((cfg0.win 1).blk t).view.emb y) = V c main_v1 y
  refine congrArg (V c main_v1) ?_
  funext a; apply Fin.ext
  match a with
  | ⟨0, _⟩ => show win0_1.index t (0 : Fin 2) * 2048 + 1 * (y 0).val = (y 0).val; omega
  | ⟨1, _⟩ => show win0_1.index t (1 : Fin 2) * 2047 + 1 * (y 1).val = (y 1).val; omega

/-- The output window's block at the point holds every index of its array. -/
theorem mem_blk0_2 (t : Fin cfg0.N) (i : S2047x2047.Idx) : i ∈ ((cfg0.win 2).blk t).view.set := by
  obtain ⟨-, -, -, -, e0, e1⟩ := idx0 t
  show i ∈ ((View.whole main_v2).slice (win0_2.rect t)).set
  rw [View.set_slice_whole, Rect.mem_set_unit]
  intro a
  match a with
  | ⟨0, _⟩ =>
    show win0_2.index t (0 : Fin 2) * 2047 ≤ (i 0).val ∧ (i 0).val < win0_2.index t (0 : Fin 2) * 2047 + 2047
    have h : (i 0).val < 2047 := (i 0).isLt; omega
  | ⟨1, _⟩ =>
    show win0_2.index t (1 : Fin 2) * 2047 ≤ (i 1).val ∧ (i 1).val < win0_2.index t (1 : Fin 2) * 2047 + 2047
    have h : (i 1).val < 2047 := (i 1).isLt; omega

/-- What the point writes back of ANY buffer contents is the block's read of those contents as an array: the block is the whole array. -/
theorem cut_eq_read0 (t : Fin cfg0.N) (G : S2047x2047.Idx → Elt F .bf16) :
    (cfg0.win 2).cut (grid0.coords t) G = ((cfg0.win 2).blk t).view.read (Elt F) G := by
  obtain ⟨-, -, -, -, e0, e1⟩ := idx0 t
  funext j
  show G j = G (((cfg0.win 2).blk t).view.emb j)
  refine congrArg G ?_
  funext a; apply Fin.ext
  match a with
  | ⟨0, _⟩ => show (j 0).val = win0_2.index t (0 : Fin 2) * 2047 + 1 * (j 0).val; omega
  | ⟨1, _⟩ => show (j 1).val = win0_2.index t (1 : Fin 2) * 2047 + 1 * (j 1).val; omega

/-- The array region 0 leaves: the body's function of the two arrays it found. -/
theorem arr0 (c : Dev nD) : (dat0 V c).arrAt 2 cfg0.N = out0_2 (V c main_v0) (V c main_v1) := by
  refine (dat0 V c).arrAt_eq_of_cover 2 (out0_2 (V c main_v0) (V c main_v1)) (fun t _ => ?_) (fun i => ⟨⟨0, by decide⟩, flush0_2 _, mem_blk0_2 _ i⟩)
  show (cfg0.win 2).cut (grid0.coords t) ((dat0 V c).after 2 t) = _
  rw [after0_2, iblk0_0_eq, iblk0_1_eq]
  exact cut_eq_read0 t _

/-- Region 0 leaves its second input array as found (an input window is never written back). -/
theorem kept0_1 (c : Dev nD) : (dat0 V c).arrAt 1 cfg0.N = V c main_v1 :=
  ((dat0 V c).arrAt_in 1 rfl _).trans (A_eq0 V c 1)

/-! ## Region 1: the Newton–Schulz trips -/

theorem iblk1_0_eq (c : Dev nD) (t : Fin cfg1.N) : iblk1 V c 0 t = V c main_v2 := by
  obtain ⟨e0, e1, -⟩ := idx1 t
  funext y
  show V c main_v2 (((cfg1.win 0).blk t).view.emb y) = V c main_v2 y
  refine congrArg (V c main_v2) ?_
  funext a; apply Fin.ext
  match a with
  | ⟨0, _⟩ => show win1_0.index t (0 : Fin 2) * 2047 + 1 * (y 0).val = (y 0).val; omega
  | ⟨1, _⟩ => show win1_0.index t (1 : Fin 2) * 2047 + 1 * (y 1).val = (y 1).val; omega

theorem mem_blk1_1 (t : Fin cfg1.N) (i : S2047x2047.Idx) : i ∈ ((cfg1.win 1).blk t).view.set := by
  obtain ⟨-, -, e0, e1⟩ := idx1 t
  show i ∈ ((View.whole main_v3).slice (win1_1.rect t)).set
  rw [View.set_slice_whole, Rect.mem_set_unit]
  intro a
  match a with
  | ⟨0, _⟩ =>
    show win1_1.index t (0 : Fin 2) * 2047 ≤ (i 0).val ∧ (i 0).val < win1_1.index t (0 : Fin 2) * 2047 + 2047
    have h : (i 0).val < 2047 := (i 0).isLt; omega
  | ⟨1, _⟩ =>
    show win1_1.index t (1 : Fin 2) * 2047 ≤ (i 1).val ∧ (i 1).val < win1_1.index t (1 : Fin 2) * 2047 + 2047
    have h : (i 1).val < 2047 := (i 1).isLt; omega

/-- What the point writes back of ANY buffer contents is the block's read of those contents as an array: the block is the whole array. -/
theorem cut_eq_read1 (t : Fin cfg1.N) (G : S2047x2047.Idx → Elt F .bf16) :
    (cfg1.win 1).cut (grid1.coords t) G = ((cfg1.win 1).blk t).view.read (Elt F) G := by
  obtain ⟨-, -, e0, e1⟩ := idx1 t
  funext j
  show G j = G (((cfg1.win 1).blk t).view.emb j)
  refine congrArg G ?_
  funext a; apply Fin.ext
  match a with
  | ⟨0, _⟩ => show (j 0).val = win1_1.index t (0 : Fin 2) * 2047 + 1 * (j 0).val; omega
  | ⟨1, _⟩ => show (j 1).val = win1_1.index t (1 : Fin 2) * 2047 + 1 * (j 1).val; omega

/-- The array region 1 leaves: the five trips of the array it found. -/
theorem arr1 (c : Dev nD) : (dat1 V c).arrAt 1 cfg1.N = Body.trips (V c main_v2) := by
  refine (dat1 V c).arrAt_eq_of_cover 1 (Body.trips (V c main_v2)) (fun t _ => ?_) (fun i => ⟨⟨0, by decide⟩, flush1_1 _, mem_blk1_1 _ i⟩)
  show (cfg1.win 1).cut (grid1.coords t) ((dat1 V c).after 1 t) = _
  rw [after1_1]
  unfold outsAt1
  rw [Body.out1_eq, iblk1_0_eq]
  exact cut_eq_read1 t _

/-! ## Region 2: the lift-back -/

theorem iblk2_0_eq (c : Dev nD) (t : Fin cfg2.N) : iblk2 V c 0 t = V c main_v3 := by
  obtain ⟨e0, e1, -⟩ := idx2 t
  funext y
  show V c main_v3 (((cfg2.win 0).blk t).view.emb y) = V c main_v3 y
  refine congrArg (V c main_v3) ?_
  funext a; apply Fin.ext
  match a with
  | ⟨0, _⟩ => show win2_0.index t (0 : Fin 2) * 2047 + 1 * (y 0).val = (y 0).val; omega
  | ⟨1, _⟩ => show win2_0.index t (1 : Fin 2) * 2047 + 1 * (y 1).val = (y 1).val; omega

theorem iblk2_1_eq (c : Dev nD) (t : Fin cfg2.N) : iblk2 V c 1 t = V c main_v1 := by
  obtain ⟨-, -, e0, e1, -⟩ := idx2 t
  funext y
  show V c main_v1 (((cfg2.win 1).blk t).view.emb y) = V c main_v1 y
  refine congrArg (V c main_v1) ?_
  funext a; apply Fin.ext
  match a with
  | ⟨0, _⟩ => show win2_1.index t (0 : Fin 2) * 2048 + 1 * (y 0).val = (y 0).val; omega
  | ⟨1, _⟩ => show win2_1.index t (1 : Fin 2) * 2047 + 1 * (y 1).val = (y 1).val; omega

theorem mem_blk2_2 (t : Fin cfg2.N) (i : S2048x2048.Idx) : i ∈ ((cfg2.win 2).blk t).view.set := by
  obtain ⟨-, -, -, -, e0, e1⟩ := idx2 t
  show i ∈ ((View.whole main_v4).slice (win2_2.rect t)).set
  rw [View.set_slice_whole, Rect.mem_set_unit]
  intro a
  match a with
  | ⟨0, _⟩ =>
    show win2_2.index t (0 : Fin 2) * 2048 ≤ (i 0).val ∧ (i 0).val < win2_2.index t (0 : Fin 2) * 2048 + 2048
    have h : (i 0).val < 2048 := (i 0).isLt; omega
  | ⟨1, _⟩ =>
    show win2_2.index t (1 : Fin 2) * 2048 ≤ (i 1).val ∧ (i 1).val < win2_2.index t (1 : Fin 2) * 2048 + 2048
    have h : (i 1).val < 2048 := (i 1).isLt; omega

/-- What the point writes back of ANY buffer contents is the block's read of those contents as an array: the block is the whole array. -/
theorem cut_eq_read2 (t : Fin cfg2.N) (G : S2048x2048.Idx → Elt F .f32) :
    (cfg2.win 2).cut (grid2.coords t) G = ((cfg2.win 2).blk t).view.read (Elt F) G := by
  obtain ⟨-, -, -, -, e0, e1⟩ := idx2 t
  funext j
  show G j = G (((cfg2.win 2).blk t).view.emb j)
  refine congrArg G ?_
  funext a; apply Fin.ext
  match a with
  | ⟨0, _⟩ => show (j 0).val = win2_2.index t (0 : Fin 2) * 2048 + 1 * (j 0).val; omega
  | ⟨1, _⟩ => show (j 1).val = win2_2.index t (1 : Fin 2) * 2048 + 1 * (j 1).val; omega

/-- The array region 2 leaves: the body's function of the two arrays it found. -/
theorem arr2 (c : Dev nD) : (dat2 V c).arrAt 2 cfg2.N = out2_2 (V c main_v3) (V c main_v1) := by
  refine (dat2 V c).arrAt_eq_of_cover 2 (out2_2 (V c main_v3) (V c main_v1)) (fun t _ => ?_) (fun i => ⟨⟨0, by decide⟩, flush2_2 _, mem_blk2_2 _ i⟩)
  show (cfg2.win 2).cut (grid2.coords t) ((dat2 V c).after 2 t) = _
  rw [after2_2, iblk2_0_eq, iblk2_1_eq]
  exact cut_eq_read2 t _

end Cert.KernelIdeal.Arrays

end
-- ==== Proof.KernelValue.lean ====
/-
  The result array after the run, as one term of the two argument arrays.

  The run's last boundary holds, at the result buffer, what the lift-back region leaves; that region found the
  Newton–Schulz region's output and the narrowed `U`; the Newton–Schulz region found the down-projection's output;
  the down-projection found the two narrowed arguments, which the two host operations before it wrote. A buffer no
  region writes keeps its contents across that region.
-/
import proofs.«139340_j257698038385_1_alg».proof.Proof.KernelArrays
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first host operation wrote the narrowed `H_raw`. -/
theorem V1_v0 (c : Dev nD) :
    V1 m ρ c main_v0 = truncf .bf16 (m ((c : Thread nD τ).loc main_arg0)) bitsLt_bf16_f32 := by
  show StableHlo.after hostOps0 (W0 m ρ c) (Proc.devRef .tc main_v0) = _
  after_results

/-- The second host operation wrote the narrowed `U`. -/
theorem V1_v1 (c : Dev nD) :
    V1 m ρ c main_v1 = truncf .bf16 (m ((c : Thread nD τ).loc main_arg1)) bitsLt_bf16_f32 := by
  show StableHlo.after hostOps0 (W0 m ρ c) (Proc.devRef .tc main_v1) = _
  after_results

/-- Region 0 leaves the narrowed `U` as it found it. -/
theorem V2_v1 (c : Dev nD) : V2 m ρ c main_v1 = V1 m ρ c main_v1 :=
  (W2_arr m ρ c 1).trans (Arrays.kept0_1 (V1 m ρ) c)

/-- Region 0 leaves its output at the body's function of the two narrowed arguments. -/
theorem V2_v2 (c : Dev nD) : V2 m ρ c main_v2 = out0_2 (V1 m ρ c main_v0) (V1 m ρ c main_v1) :=
  (W2_arr m ρ c 2).trans (Arrays.arr0 (V1 m ρ) c)

/-- Region 1 does not touch the narrowed `U`. -/
theorem V3_v1 (c : Dev nD) : V3 m ρ c main_v1 = V2 m ρ c main_v1 :=
  W3_of_ne m ρ c main_v1 (by decide)

/-- Region 1 leaves its output at the five trips of what region 0 left. -/
theorem V3_v3 (c : Dev nD) : V3 m ρ c main_v3 = Body.trips (V2 m ρ c main_v2) :=
  (W3_arr m ρ c 1).trans (Arrays.arr1 (V2 m ρ) c)

/-- The result buffer at the last boundary: the whole program's term of the two arguments. -/
theorem W4_v4 (c : Dev nD) :
    W4 m ρ c (Proc.devRef .tc main_v4)
      = Body.whole (m ((c : Thread nD τ).loc main_arg0)) (m ((c : Thread nD τ).loc main_arg1)) := by
  refine (W4_arr m ρ c 2).trans ?_
  rw [Arrays.arr2 (V3 m ρ) c, Body.out2_2_eq, V3_v3, V3_v1, V2_v2, V2_v1, Body.out0_2_eq, V1_v0, V1_v1]
  rfl

end Cert.KernelIdeal.Value

end
-- ==== Proof.Spec.lean ====
/-
  The mathematics both programs compute, written once over whole arrays with the reference's own operations.

  With `H` of shape 2048 × 2048 and `U` of shape 2048 × 2047:
    `A  = Uᵀ (H U)`                                  (restriction to the complement of the ones vector)
    `X₀ = A / ‖A‖`, `‖A‖ = sqrt (Σ A²)`              (Frobenius normalisation)
    `Xₖ₊₁ = 1.5 Xₖ − 0.5 Xₖ (Xₖᵀ Xₖ)`, five times      (cubic Newton–Schulz)
    result `= 1/2048 + U (X₅ Uᵀ)`                      (lift-back)
-/
import proofs.«139340_j257698038385_1_alg».proof.Proof.Gen.ReferenceIdeal

noncomputable section

namespace Cert.Spec

open Cert.ReferenceIdeal Cert.ReferenceIdeal.Facts₀ Cert.ReferenceIdeal.Facts Idealize.ShloMosaic

variable {F : FTy → Type} [FloatOps F]

/-- `A = Uᵀ (H U)`. -/
def down (h : FVec F S2048x2048 .f32) (u : FVec F S2048x2047 .f32) : FVec F S2047x2047 .f32 :=
  Host.dotGeneral dot_S2047x2048_S2048x2047_S2047x2047_1_0_0_1_n_n none
    (transpose S2047x2048 [1, 0] u transposes_S2048x2047_S2047x2048_1_0)
    (Host.dotGeneral dot_S2048x2048_S2048x2047_S2048x2047_1_0_0_1_n_n none h u)

/-- The sum of the squares of all entries. -/
def sumSq (a : FVec F S2047x2047 .f32) : FVec F S_ .f32 :=
  Host.reduceAdd (mulf a a) (constant S_ .f32 0x00000000#32) reducesTo_S2047x2047_S_d0_1 h_S_

/-- `A / ‖A‖`: every entry divided by the square root of the sum of squares. -/
def normalize (a : FVec F S2047x2047 .f32) : FVec F S2047x2047 .f32 :=
  Host.divf a (broadcastInDim S2047x2047 ![] bcast_S_S2047x2047 (Host.sqrt (sumSq a)))

/-- One cubic Newton–Schulz step `1.5 X − 0.5 X (Xᵀ X)`. -/
def step (x : FVec F S2047x2047 .f32) : FVec F S2047x2047 .f32 :=
  subf (mulf (broadcastInDim S2047x2047 ![] bcast_S_S2047x2047 (constant S_ .f32 0x3FC00000#32)) x)
    (mulf (broadcastInDim S2047x2047 ![] bcast_S_S2047x2047 (constant S_ .f32 0x3F000000#32))
      (Host.dotGeneral dot_S2047x2047_S2047x2047_S2047x2047_1_0_0_1_n_n none x
        (Host.dotGeneral dot_S2047x2047_S2047x2047_S2047x2047_1_0_0_1_n_n none
          (transpose S2047x2047 [1, 0] x transposes_S2047x2047_S2047x2047_1_0) x)))

/-- `1/2048 + U (X Uᵀ)`. -/
def lift (x : FVec F S2047x2047 .f32) (u : FVec F S2048x2047 .f32) : FVec F S2048x2048 .f32 :=
  addf (broadcastInDim S2048x2048 ![] bcast_S_S2048x2048 (constant S_ .f32 0x3A000000#32))
    (Host.dotGeneral dot_S2048x2047_S2047x2048_S2048x2048_1_0_0_1_n_n none u
      (Host.dotGeneral dot_S2047x2047_S2047x2048_S2047x2048_1_0_0_1_n_n none x
        (transpose S2047x2048 [1, 0] u transposes_S2048x2047_S2047x2048_1_0)))

/-- The projection: down, normalise, five steps, lift. -/
def result (h : FVec F S2048x2048 .f32) (u : FVec F S2048x2047 .f32) : FVec F S2048x2048 .f32 :=
  lift (step (step (step (step (step (normalize (down h u))))))) u

end Cert.Spec

end
-- ==== Proof.Bridge.lean ====
/-
  At the extended reals the kernel's term and the specification are one function.

  A change of float format is the identity there, a matmul into a zero accumulator is the host's contraction
  (both are the plain sum of products, `0 + s = s`), a splat of a scalar constant is the host's broadcast of
  that constant, and the kernel's and the host's quotient and square root are the same functions. Two places
  use a law of the extended reals: the kernel sums the squares row by row and then down the column of row
  sums where the reference sums over all index pairs at once (a finite sum over a product is the iterated
  sum: addition is commutative and associative), and the kernel adds `1/2048` on the right where the
  reference adds it on the left (commutativity). No law here needs finiteness.
-/
import proofs.«139340_j257698038385_1_alg».proof.Proof.KernelBodies
import proofs.«139340_j257698038385_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.Bridge

open Cert.KernelIdeal Cert.KernelIdeal.Gen Idealize.ShloMosaic Idealize.ShloMosaic.ValueIdx

/-! ## Operation by operation -/

/-- Narrowing a float format is the identity on the extended reals. -/
theorem truncf_id {s : Shape} {φ ψ : FTy} (x : FVec Ideal s φ) (h : ψ.bits < φ.bits) :
    (truncf ψ x h : FVec Ideal s ψ) = x := rfl

/-- Widening a float format is the identity on the extended reals. -/
theorem extf_id {s : Shape} {φ ψ : FTy} (x : FVec Ideal s φ) (h : φ.bits < ψ.bits) :
    (extf ψ x h : FVec Ideal s ψ) = x := rfl

/-- A matmul into the zero accumulator is the host's contraction of the same operands. -/
theorem matmul_zero {sl sr so : Shape} {φ₁ φ₂ : FTy} (d : DotDims sl sr so) (l : FVec Ideal sl φ₁) (r : FVec Ideal sr φ₂) :
    matmul d none l r (constant so .f32 0x00000000#32) = Host.dotGeneral d none l r := by
  funext j
  exact (Ideal.matmul_constant_zero_apply d none l r j).trans (Ideal.dotGeneral_apply d none .single l r j).symm

/-- A splat of a scalar constant is the host's broadcast of the rank-zero constant. -/
theorem splat_eq {t : Shape} (b : BitVec 32) (hb : (⟨0, ![]⟩ : Shape).BroadcastsInDim t ![]) :
    (broadcast t (Scalar.ofBits (F := Ideal) .f32 b) : FVec Ideal t .f32)
      = broadcastInDim t ![] hb (constant (F := Ideal) ⟨0, ![]⟩ .f32 b) := by
  funext i; rfl

/-! ## The dimension records of the two printed programs are the same records -/

theorem dot_hu : dot_S2048x2048_S2048x2047_S2048x2047_1_0_0_1_n_n = Cert.ReferenceIdeal.dot_S2048x2048_S2048x2047_S2048x2047_1_0_0_1_n_n := rfl
theorem dot_ut : dot_S2047x2048_S2048x2047_S2047x2047_1_0_0_1_n_n = Cert.ReferenceIdeal.dot_S2047x2048_S2048x2047_S2047x2047_1_0_0_1_n_n := rfl
theorem dot_xx : dot_S2047x2047_S2047x2047_S2047x2047_1_0_0_1_n_n = Cert.ReferenceIdeal.dot_S2047x2047_S2047x2047_S2047x2047_1_0_0_1_n_n := rfl
theorem dot_xu : dot_S2047x2047_S2047x2048_S2047x2048_1_0_0_1_n_n = Cert.ReferenceIdeal.dot_S2047x2047_S2047x2048_S2047x2048_1_0_0_1_n_n := rfl
theorem dot_ux : dot_S2048x2047_S2047x2048_S2048x2048_1_0_0_1_n_n = Cert.ReferenceIdeal.dot_S2048x2047_S2047x2048_S2048x2048_1_0_0_1_n_n := rfl

/-! ## One Newton–Schulz trip is one step -/

/-- The update `1.5 X − 0.5 X M` with `M = Xᵀ X` read back, in the kernel's operations, is the specification's step. -/
theorem update_eq (x : FVec Ideal S2047x2047 .f32) :
    subf (mulf (broadcast S2047x2047 (Scalar.ofBits (F := Ideal) .f32 0x3FC00000#32)) x)
      (mulf (broadcast S2047x2047 (Scalar.ofBits (F := Ideal) .f32 0x3F000000#32))
        (matmul dot_S2047x2047_S2047x2047_S2047x2047_1_0_0_1_n_n none x
          (matmul dot_S2047x2047_S2047x2047_S2047x2047_1_0_0_1_n_n none
            (transpose S2047x2047 [1, 0] x transposes_S2047x2047_p1_0_S2047x2047) x (constant S2047x2047 .f32 0x00000000#32))
          (constant S2047x2047 .f32 0x00000000#32)))
      = Cert.Spec.step x := by
  simp only [matmul_zero, dot_xx]
  rfl

/-- Copying the input buffer into the scratch buffer changes nothing. -/
theorem copy_eq (x : FVec Ideal S2047x2047 .f32) : k1_pay1 (F := Ideal) x = x := by
  unfold k1_pay1
  simp only [shapeCast_self]

theorem trip1_eq (x : FVec Ideal S2047x2047 .f32) : Body.trip1 (F := Ideal) x = Cert.Spec.step x := by
  unfold Body.trip1 k1_pay3 k1_pay2
  simp only [shapeCast_self, truncf_id, extf_id]
  exact update_eq x
theorem trip2_eq (x : FVec Ideal S2047x2047 .f32) : Body.trip2 (F := Ideal) x = Cert.Spec.step x := by
  unfold Body.trip2 k1_pay5 k1_pay4
  simp only [shapeCast_self, truncf_id, extf_id]
  exact update_eq x
theorem trip3_eq (x : FVec Ideal S2047x2047 .f32) : Body.trip3 (F := Ideal) x = Cert.Spec.step x := by
  unfold Body.trip3 k1_pay7 k1_pay6
  simp only [shapeCast_self, truncf_id, extf_id]
  exact update_eq x
theorem trip4_eq (x : FVec Ideal S2047x2047 .f32) : Body.trip4 (F := Ideal) x = Cert.Spec.step x := by
  unfold Body.trip4 k1_pay10 k1_pay9 k1_pay8
  simp only [shapeCast_self, truncf_id, extf_id]
  exact update_eq x
theorem trip5_eq (x : FVec Ideal S2047x2047 .f32) : Body.trip5 (F := Ideal) x = Cert.Spec.step x := by
  unfold Body.trip5 k1_pay12 k1_pay11
  simp only [shapeCast_self, truncf_id, extf_id]
  exact update_eq x

/-- The five trips are five steps. -/
theorem trips_eq (x : FVec Ideal S2047x2047 .f32) :
    Body.trips (F := Ideal) x = Cert.Spec.step (Cert.Spec.step (Cert.Spec.step (Cert.Spec.step (Cert.Spec.step x)))) := by
  unfold Body.trips
  rw [trip5_eq, trip4_eq, trip3_eq, trip2_eq, trip1_eq, copy_eq]

/-! ## The Frobenius norm: rows first, or all index pairs at once -/

/-- The source index over row `r` with column `c` inserted is `(r, c)`. -/
theorem lift_row (r c : Fin 2047) : reduces_S2047x2047_S2047.lift (ix1 r) c = ix2 r c := by
  funext a; apply Fin.ext
  match a with
  | ⟨0, _⟩ => rfl
  | ⟨1, _⟩ => rfl

/-- The source index of the column of row sums over the one result index with row `r` inserted is `(r, 0)`. -/
theorem lift_col (r : Fin 2047) : reduces_S2047x1_S1.lift (ix1 (0 : Fin 1)) r = ix2 r (0 : Fin 1) := by
  funext a; apply Fin.ext
  match a with
  | ⟨0, _⟩ => rfl
  | ⟨1, _⟩ => rfl

/-- The kernel's two-stage sum of a 2047 × 2047 array is the iterated sum over rows and columns. -/
theorem rows_then_col (x : FVec Ideal S2047x2047 .f32) (j : S1x1.Idx) :
    shapeCast S1x1 (multiReduction .add [0] S1
      (shapeCast S2047x1 (multiReduction .add [1] S2047 x 0x00000000#32 reduces_S2047x2047_S2047 (.inl rfl) rfl) shapeCasts_S2047_S2047x1)
      0x00000000#32 reduces_S2047x1_S1 (.inl rfl) rfl) shapeCasts_S1_S1x1 j
      = ∑ r : Fin 2047, ∑ c : Fin 2047, x (ix2 r c) := by
  have hj0 : (j 0).val = 0 := by have h : (j 0).val < 1 := (j 0).isLt; omega
  have hj1 : (j 1).val = 0 := by have h : (j 1).val < 1 := (j 1).isLt; omega
  refine (shapeCast_apply _ shapeCasts_S1_S1x1 j (ix1 (0 : Fin 1)) (by
    rw [Shape.rowMajor_val_one, Shape.rowMajor_val_two]; show (0 : Nat) = (j 0).val * 1 + (j 1).val; omega)).trans ?_
  refine (Ideal.multiReduction_add_single _ 0x00000000#32 reduces_S2047x1_S1 (.inl rfl) rfl (ix1 (0 : Fin 1))).trans ?_
  show ∑ r : Fin 2047, _ = _
  refine Finset.sum_congr rfl fun r _ => ?_
  refine (congrArg (shapeCast S2047x1 _ shapeCasts_S2047_S2047x1) (lift_col r)).trans ?_
  refine (shapeCast_apply _ shapeCasts_S2047_S2047x1 (ix2 r (0 : Fin 1)) (ix1 r) (by
    rw [Shape.rowMajor_val_one, Shape.rowMajor_val_two]; show r.val = r.val * 1 + 0; omega)).trans ?_
  refine (Ideal.multiReduction_add_single _ 0x00000000#32 reduces_S2047x2047_S2047 (.inl rfl) rfl (ix1 r)).trans ?_
  show ∑ c : Fin 2047, _ = _
  refine Finset.sum_congr rfl fun c _ => ?_
  exact congrArg x (lift_row r c)

/-- The reference's sum over both axes at once is the same iterated sum. -/
theorem all_at_once (x : FVec Ideal S2047x2047 .f32) (j : Cert.ReferenceIdeal.S_.Idx) :
    Cert.Spec.sumSq (F := Ideal) x j = ∑ r : Fin 2047, ∑ c : Fin 2047, x (ix2 r c) * x (ix2 r c) := by
  unfold Cert.Spec.sumSq Host.reduceAdd
  rw [Ideal.hostReduceAdd_def, Ideal.hostReduceAdd_total _ (fun b => b.elim0)]
  show Ideal.ofBits .f32 0x00000000#32 + _ = _
  rw [Ideal.ofBits_zero_f32, zero_add, sum_idx2]
  rfl

/-- The kernel's quotient by the broadcast norm is the specification's normalisation. -/
theorem normalize_eq (a : FVec Ideal S2047x2047 .f32) :
    divf a (broadcastTo S2047x2047 (sqrt (shapeCast S1x1 (multiReduction .add [0] S1
      (shapeCast S2047x1 (multiReduction .add [1] S2047 (mulf a a) 0x00000000#32 reduces_S2047x2047_S2047 (.inl rfl) rfl) shapeCasts_S2047_S2047x1)
      0x00000000#32 reduces_S2047x1_S1 (.inl rfl) rfl) shapeCasts_S1_S1x1)) broadcasts_S1x1_S2047x2047)
      = Cert.Spec.normalize a := by
  funext i
  unfold Cert.Spec.normalize
  show Ideal.div (a i) _ = Ideal.div (a i) _
  refine congrArg (Ideal.div (a i)) ?_
  rw [broadcastTo_apply _ broadcasts_S1x1_S2047x2047 i (ix2 (0 : Fin 1) (0 : Fin 1)) (fun b => by
    match b with
    | ⟨0, _⟩ => rfl
    | ⟨1, _⟩ => rfl)]
  rw [broadcastInDim_apply _ _ _ i ix0 (fun b => b.elim0)]
  show Ideal.sqrt _ = Ideal.sqrt _
  refine congrArg Ideal.sqrt ?_
  rw [rows_then_col, all_at_once]
  rfl

/-! ## The three bodies -/

/-- The down-projection body's payload of the narrowed arguments is the normalised `Uᵀ (H U)`. -/
theorem down_eq (h : FVec Ideal S2048x2048 .f32) (u : FVec Ideal S2048x2047 .f32) :
    k0_pay1 (F := Ideal) (truncf .bf16 h bitsLt_bf16_f32) (truncf .bf16 u bitsLt_bf16_f32) (truncf .bf16 u bitsLt_bf16_f32)
      = Cert.Spec.normalize (Cert.Spec.down h u) := by
  unfold k0_pay1
  simp only [shapeCast_self, truncf_id, matmul_zero, dot_hu, dot_ut]
  exact normalize_eq _

/-- The lift-back body's payload is the specification's lift. -/
theorem lift_eq (x : FVec Ideal S2047x2047 .f32) (u : FVec Ideal S2048x2047 .f32) :
    k2_pay1 (F := Ideal) (truncf .bf16 u bitsLt_bf16_f32) x (truncf .bf16 u bitsLt_bf16_f32) = Cert.Spec.lift x u := by
  unfold k2_pay1
  simp only [shapeCast_self, truncf_id, matmul_zero, dot_ux, dot_xu]
  funext i
  show _ + _ = _ + _
  exact add_comm _ _

/-- THE BRIDGE: at the extended reals the kernel's whole term is the specification. -/
theorem whole_eq (h : FVec Ideal S2048x2048 .f32) (u : FVec Ideal S2048x2047 .f32) :
    Body.whole (F := Ideal) h u = Cert.Spec.result h u := by
  unfold Body.whole Cert.Spec.result
  rw [down_eq, trips_eq, lift_eq]

end Cert.Bridge

end
-- ==== Proof.lean ====
/-
  The certificate: a three-call Pallas pipeline — down-projection onto the complement of the ones vector with Frobenius
  normalisation, five cubic Newton–Schulz steps, lift-back — against its jnp reference, equal as functions on the
  extended reals.

  The three frames: the word-level kernel's and the idealized kernel's are the generated region-by-region frame; the
  reference's is its run with the result dropped. The ideal pass rewrote nothing, so `preserves` is `True`.
  `algebraic`: the kernel's run names the result buffer at the last region boundary, which is the kernel's whole term
  of the arguments (region by region: every grid has one point and every block is its whole array); the reference's
  run ends with its result at the specification (the same operations of the same operands); and at the extended reals the kernel's whole term is the
  specification (format changes are the identity, a matmul into zero is the host contraction, the two-stage sum of
  squares is the sum over all pairs, and the final addition commutes). The precondition is never opened: no law used
  needs finiteness.
-/
import proofs.«139340_j257698038385_1_alg».proof.Defs
import proofs.«139340_j257698038385_1_alg».proof.Proof.Gen.Kernel
import proofs.«139340_j257698038385_1_alg».proof.Proof.Gen.Kernel.Frame
import proofs.«139340_j257698038385_1_alg».proof.Proof.Gen.KernelIdeal
import proofs.«139340_j257698038385_1_alg».proof.Proof.Gen.KernelIdeal.Frame
import proofs.«139340_j257698038385_1_alg».proof.Proof.Gen.ReferenceIdeal
import proofs.«139340_j257698038385_1_alg».proof.Proof.Gen.Pre_finite_inputs
import proofs.«139340_j257698038385_1_alg».proof.Proof.KernelRun
import proofs.«139340_j257698038385_1_alg».proof.Proof.KernelValue
import proofs.«139340_j257698038385_1_alg».proof.Proof.Bridge
import proofs.«139340_j257698038385_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the specification of the (agreeing) arguments. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, (h c).2.1, (h c).2.2⟩)
      (Cert.KernelIdeal.GenRun.run_named (F := Ideal) m ρ)
    rw [(h c).1, Cert.KernelIdeal.Value.W4_v4, Cert.Bridge.whole_eq]
  · refine (θ_run Cert.ReferenceIdeal.defs _ _).mono (fun r h c => ⟨?_, (h c).2.1, (h c).2.2⟩)
      (Cert.ReferenceIdeal.ValueP.run (F := Ideal) m' ρ')
    rw [(h c).1]
    unfold Cert.ReferenceIdeal.ValueP.res_main_v50
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
